-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 26
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S1x4096, .f32⟩
  | .hbm, ⟨17, _⟩ => ⟨S8192x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x1, .f32⟩
  | .hbm, ⟨25, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1, .f32⟩
  | .local _ .vmem, ⟨6, _⟩ => ⟨S1024x1, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  shapeCasts_S4096_S4096x1 : S4096.ShapeCasts S4096x1
  shapeCasts_S4096_S1x4096 : S4096.ShapeCasts S1x4096
  reducesTo_S8192x4096_S_d0_1 : S8192x4096.ReducesTo [0, 1] S_
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  broadcasts_S1024x1_S1024x1024 : S1024x1.Broadcasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S8192x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S4096x4096, .f32⟩
  | .hbm, ⟨50, _⟩ => ⟨S8192x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S1x4096, .f32⟩
  | .hbm, ⟨57, _⟩ => ⟨S8192x4096, .f32⟩
  | .hbm, ⟨58, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_cst_9 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S8192x4096_S_d0_1 : S8192x4096.ReducesTo [0, 1] S_
  bcast_S_S8192x4096 : S_.BroadcastsInDim S8192x4096 (![] : Fin 0 → Fin S8192x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BodyPieces.lean ====
/-
  What one run of the quantized-product body leaves behind, as values of the blocks it loads.

  The body keeps a 1024×1024 accumulator in a scratch buffer. At a point where the reduction coordinate is 0 it first
  stores zeros there; at every point it then loads the accumulator, adds the product of the two quantized blocks, and
  stores the sum back; at a point where the reduction coordinate is 3 it loads the accumulator once more and stores
  `round(acc) · x_scale · w_scale` into the output block. Each store covers its whole buffer, so what a buffer holds
  after the body is the last payload stored into it, with every load read where the preceding store left it:

    reduction coordinate 0      scratch = zeros + product
    reduction coordinate 1, 2   scratch = what it held + product
    reduction coordinate 3      scratch = what it held + product,   output = epilogue of that new scratch
-/
import proofs.«111246_j49770081026763_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The origin of a two-axis block. -/
theorem hz : (![0, 0] : Fin 2 → Nat) = fun _ => 0 := funext fun a => by fin_cases a <;> rfl

/-- Reduction coordinate 0: the scratch ends at the product added to the zeros just stored. -/
theorem scratch_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x1024 .f32) (x1 : Vec F S1024x1024 .f32) (x2 : Vec F S1x1 .f32) (x3 : Vec F S1024x1 .f32) (x4 : Vec F S1x1024 .f32) :
    sout0_A_0 c i arg3 harg3 arg4 harg4 arg5 harg5 arg6 harg6 arg7 harg7 arg8 harg8 arg9 harg9 hc0 hc1 x0 x1 x2 x3 x4 = k0_pay4 x2 x3 x0 x1 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz]
  simp only [View.readAt_eq_ld, harg3.read_unread, harg4.read_unread, harg5.read_unread, harg6.read_unread, harg7.read_unread, harg9.read_unread, View.readCov_unit_zero (S := S1024x1024) _ hz, View.ld_unit_zero (S := S1024x1024) hz, View.ld_unit_zero (S := S1x1) hz, View.ld_unit_zero (S := S1024x1) hz, View.ld_unit_zero (S := S1x1024) hz]

/-- Reduction coordinate 1 or 2: the scratch ends at the product added to what it held. -/
theorem scratch_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x1024 .f32) (x1 : Vec F S1024x1024 .f32) (x2 : Vec F S1x1 .f32) (x3 : Vec F S1024x1 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay4 x2 x3 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg7.read_unread, harg9.read_unread, View.readCov_unit_zero (S := S1024x1024) _ hz, View.ld_unit_zero (S := S1024x1024) hz, View.ld_unit_zero (S := S1x1) hz, View.ld_unit_zero (S := S1024x1) hz, View.ld_unit_zero (S := S1x1024) hz]

/-- Reduction coordinate 3: the scratch ends at the product added to what it held; -/
theorem scratch_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .f32) (x1 : Vec F S1024x1024 .f32) (x2 : Vec F S1x1 .f32) (x3 : Vec F S1024x1 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay4 x2 x3 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread, View.readCov_unit_zero (S := S1024x1024) _ hz, View.ld_unit_zero (S := S1024x1024) hz, View.ld_unit_zero (S := S1x1) hz, View.ld_unit_zero (S := S1024x1) hz, View.ld_unit_zero (S := S1x1024) hz]

/-- and the output block at the epilogue of that new accumulator. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1 .f32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x1024 .f32) (x1 : Vec F S1024x1024 .f32) (x2 : Vec F S1x1 .f32) (x3 : Vec F S1024x1 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay1 (k0_pay3 x2) x4 (k0_pay4 x2 x3 x0 x1 xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread, harg9.read_unread, View.readCov_unit_zero (S := S1024x1024) _ hz, View.ld_unit_zero (S := S1024x1024) hz, View.ld_unit_zero (S := S1x1) hz, View.ld_unit_zero (S := S1024x1) hz, View.ld_unit_zero (S := S1x1024) hz]

end Cert.KernelIdeal.Body

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.QuantAlgebra.lean ====
/-
  Extended-real facts behind a symmetric fake-quantized product.

  A value clipped between two real bounds is a real number, whatever it was before the clip (an infinity included);
  rounding a real number to the nearest integer gives a real number; so a quantized entry `round (clip v)` is always
  real, a finite sum of products of such entries is real, and on a real number `v` the straight-through form
  `v + (round v - v)` is `round v`: the subtraction and the addition cancel because nothing is infinite.
  Last, an accumulator that starts at zero and takes four consecutive runs of 1024 products holds the whole
  4096-term contraction: only commutativity and associativity of the sum are used.
-/
import Idealize.ShloMosaic.PureOps.Ideal.Laws
import proofs.«111246_j49770081026763_1_alg».proof.Proof.LibRunSums

noncomputable section

open scoped BigOperators

namespace QuantAlgebra

open Idealize.ShloMosaic

/-- Rounding to the nearest integer, ties to even, on the extended reals (the infinities stay). -/
abbrev rnd : EReal → EReal := Ideal.liftRound Ideal.roundHalfEven

/-- The upper clipping bound denotes the real 127, -/
theorem hi_eq : Ideal.ofBits .f32 0x42FE0000#32 = ((127 : ℝ) : EReal) := by
  simp [Ideal.ofBits, Ideal.ieee, -EReal.coe_mul]; norm_num

/-- and the lower one the real -127. -/
theorem lo_eq : Ideal.ofBits .f32 0xC2FE0000#32 = ((-127 : ℝ) : EReal) := by
  simp [Ideal.ofBits, Ideal.ieee, -EReal.coe_mul]; norm_num

/-- A value clipped between two reals is a real. -/
theorem clip_real (lo hi : ℝ) (v : EReal) : ∃ r : ℝ, min (hi : EReal) (max (lo : EReal) v) = (r : EReal) := by
  have h1 : min (hi : EReal) (max (lo : EReal) v) ≠ ⊤ :=
    ne_top_of_le_ne_top (EReal.coe_ne_top hi) (min_le_left _ _)
  have h2 : min (hi : EReal) (max (lo : EReal) v) ≠ ⊥ :=
    (lt_min_iff.mpr ⟨EReal.bot_lt_coe hi, lt_of_lt_of_le (EReal.bot_lt_coe lo) (le_max_left _ _)⟩).ne'
  exact ⟨_, (EReal.coe_toReal h1 h2).symm⟩

/-- The quantizer's clip, between the two printed bounds, gives a real. -/
theorem clipq_real (v : EReal) :
    ∃ r : ℝ, min (Ideal.ofBits .f32 0x42FE0000#32) (max (Ideal.ofBits .f32 0xC2FE0000#32) v) = (r : EReal) := by
  rw [hi_eq, lo_eq]; exact clip_real _ _ v

/-- The quantizer's clip to the signed 8-bit range `[-127, 127]`, on the extended reals. -/
def clipq (v : EReal) : EReal := min (Ideal.ofBits .f32 0x42FE0000#32) (max (Ideal.ofBits .f32 0xC2FE0000#32) v)

/-- Rounding a real gives a real. -/
theorem rnd_real {v : EReal} (h : ∃ r : ℝ, v = (r : EReal)) : ∃ r : ℝ, rnd v = (r : EReal) := by
  obtain ⟨r, rfl⟩ := h
  exact ⟨(Ideal.roundHalfEven r : ℝ), rfl⟩

/-- On a real the straight-through form is the rounding. -/
theorem ste_of_real {v : EReal} (h : ∃ r : ℝ, v = (r : EReal)) : v + (rnd v - v) = rnd v := by
  obtain ⟨r, rfl⟩ := h
  show (r : EReal) + (((Ideal.roundHalfEven r : ℝ) : EReal) - (r : EReal)) = ((Ideal.roundHalfEven r : ℝ) : EReal)
  rw [← EReal.coe_sub, ← EReal.coe_add]
  congr 1; ring

/-- A quantized entry: the quotient by the scale, clipped, rounded. -/
def quant (v s : EReal) : EReal := rnd (clipq (Ideal.div v s))

/-- A quantized entry is a real, whatever the value and the scale. -/
theorem quant_real (v s : EReal) : ∃ r : ℝ, quant v s = (r : EReal) := rnd_real (clipq_real _)

/-- The straight-through form of a quantized entry is the quantized entry. -/
theorem ste_quant (v s : EReal) :
    clipq (Ideal.div v s) + (rnd (clipq (Ideal.div v s)) - clipq (Ideal.div v s)) = quant v s :=
  ste_of_real (clipq_real _)

/-- A finite sum of products of reals is a real. -/
theorem sum_mul_real {ι : Type*} (s : Finset ι) (a b : ι → EReal) (ha : ∀ k, ∃ r : ℝ, a k = (r : EReal))
    (hb : ∀ k, ∃ r : ℝ, b k = (r : EReal)) : ∃ r : ℝ, ∑ k ∈ s, a k * b k = (r : EReal) := by
  classical
  refine Finset.induction_on s ⟨0, by simp⟩ ?_
  intro x s hx ih
  obtain ⟨r, hr⟩ := ih
  obtain ⟨p, hp⟩ := ha x
  obtain ⟨q, hq⟩ := hb x
  exact ⟨p * q + r, by rw [Finset.sum_insert hx, hr, hp, hq, ← EReal.coe_mul, ← EReal.coe_add]⟩

/-- Zero plus four consecutive runs of 1024 terms is the sum of all 4096 terms. -/
theorem four_runs {M : Type*} [AddCommMonoid M] (g : ℕ → M) :
    (0 : M) + ∑ s ∈ Finset.range 4, ∑ r : Fin 1024, g (1024 * s + r.val) = ∑ k : Fin 4096, g k.val := by
  rw [zero_add, Finset.sum_range_succ, Finset.sum_range_succ, Finset.sum_range_succ, Finset.sum_range_one,
    Cert.RunSums.first_run 1024 g, Cert.RunSums.add_next_run 1024 g 1, Cert.RunSums.add_next_run 1024 g 2,
    Cert.RunSums.add_next_run 1024 g 3, Cert.RunSums.whole_column]

end QuantAlgebra

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.BodyValue.lean ====
/-
  The body's two payloads read at a row and a column, on the extended reals.

  The accumulating payload at `(p, q)` is what the accumulator held there plus
  `Σₜ round(clip(x[p,t] / sx)) · round(clip(w[q,t] / sw[q]))` over the block's 1024 reduction positions: the casts to
  the narrow float format are the identity on the extended reals, the right operand is the transposed weight block,
  and a matrix product into zeros is the plain sum. The epilogue's payload at `(p, q)` is
  `round(acc[p,q]) · sx · sw[q]`, the column scales laid out as one row.
-/
import proofs.«111246_j49770081026763_1_alg».proof.Proof.Gen.KernelIdeal.Skeleton
import proofs.«111246_j49770081026763_1_alg».proof.Proof.QuantAlgebra
import proofs.«111246_j49770081026763_1_alg».proof.Proof.LibPlainDot
import proofs.«111246_j49770081026763_1_alg».proof.Proof.LibMatrixReads
import Idealize.ShloMosaic.Lib.Pipeline.Value
import Idealize.ShloMosaic.Lib.ValueIdx

noncomputable section

open scoped BigOperators
open Idealize.ShloMosaic Idealize.ShloMosaic.ValueIdx QuantAlgebra

namespace Cert.KernelIdeal.Body

open Cert.KernelIdeal Cert.KernelIdeal.Gen

/-- A single column broadcast across `n` columns reads that column at every column. -/
theorem colBroadcast_apply {α : Type} (m n : Nat) (x : (⟨2, ![m, 1]⟩ : Shape).Idx → α)
    (h : (⟨2, ![m, 1]⟩ : Shape).Broadcasts ⟨2, ![m, n]⟩) (p : Fin m) (j : Fin n) :
    broadcastTo ⟨2, ![m, n]⟩ x h (ix2 p j) = x (ix2 p (0 : Fin 1)) := by
  refine broadcastTo_apply x h (ix2 p j) (ix2 p 0) fun a => ?_
  match a with
  | ⟨0, _⟩ =>
    show p.val = if m = 1 then 0 else p.val
    have := p.isLt
    split_ifs with hm
    · omega
    · rfl
  | ⟨1, _⟩ => rfl

/-- The accumulating payload at row `p`, column `q`. -/
theorem acc_apply (x2 : Vec Ideal S1x1 .f32) (x3 : Vec Ideal S1024x1 .f32) (x0 x1 acc : Vec Ideal S1024x1024 .f32)
    (p q : Fin 1024) :
    (k0_pay4 x2 x3 x0 x1 acc (ix2 p q) : EReal)
      = (acc (ix2 p q) : EReal) + ∑ t : Fin 1024,
          quant (x0 (ix2 p t)) (k0_pay3 x2) * quant (x1 (ix2 q t)) (x3 (ix2 q (0 : Fin 1))) := by
  unfold k0_pay4
  refine (congrFun (shapeCast_self _ _) (ix2 p q)).trans ?_
  refine congrArg (fun e : EReal => (acc (ix2 p q) : EReal) + e) ?_
  refine (PlainDot.matmul_zero_apply 1024 1024 1024 none _ _ p q).trans ?_
  refine Finset.sum_congr rfl fun t _ => ?_
  refine congrArg₂ (· * ·) rfl ?_
  refine (MatrixReads.transpose2_apply 1024 1024 _ _ t q).trans ?_
  show quant (x1 (ix2 q t)) (broadcastTo S1024x1024 (shapeCast S1024x1 x3 _) _ (ix2 q t)) = _
  refine congrArg (fun e : EReal => quant (x1 (ix2 q t)) e) ?_
  refine (colBroadcast_apply 1024 1024 _ _ q t).trans ?_
  exact congrFun (shapeCast_self _ _) _

/-- The epilogue's payload at row `p`, column `q`. -/
theorem epilogue_apply (s : Ideal .f32) (x4 : Vec Ideal S1x1024 .f32) (acc : Vec Ideal S1024x1024 .f32) (p q : Fin 1024) :
    (k0_pay1 s x4 acc (ix2 p q) : EReal) = rnd (acc (ix2 p q)) * s * x4 (ix2 (0 : Fin 1) q) := by
  unfold k0_pay1
  show rnd (acc (ix2 p q)) * s * broadcastTo S1024x1024 (shapeCast S1x1024 x4 _) _ (ix2 p q) = _
  refine congrArg (fun e : EReal => rnd (acc (ix2 p q)) * s * e) ?_
  refine (MatrixReads.rowBroadcast_apply 1024 1024 _ _ p q).trans ?_
  exact congrFun (shapeCast_self _ _) _

/-- The zeros the reset stores read zero everywhere. -/
theorem zeros_apply (j : S1024x1024.Idx) : (k0_pay2 (F := Ideal) j : EReal) = 0 := by
  unfold k0_pay2
  refine (congrFun (shapeCast_self _ _) j).trans ?_
  exact Ideal.ofBits_zero_f32

end Cert.KernelIdeal.Body

end
-- ==== Proof.BlockReads.lean ====
/-
  Where each block of a grid point sits in its array.

  The grid is 8 × 4 × 4: row tiles of the activations, column tiles of the output (rows of the weights), and reduction tiles,
  the last moving fastest, so point `t` is row tile `t / 16`, output-column tile `t / 4 % 4`, reduction tile `t % 4`. A block's
  element `(p, k)` is the array's element at (block index × 1024 + p, block index × 1024 + k) on the two axes; the 1×1 scale
  has a single block, the column of weight scales is cut by output-column tile along its rows, the row of weight scales by
  output-column tile along its columns, and the output by row tile and output-column tile.
-/
import proofs.«111246_j49770081026763_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps in closed form, decided over the grid's 128 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = 0
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-- The activation block: rows of row tile `t / 16`, reduction positions of reduction tile `t % 4`. -/
theorem x_apply (c : Dev nD) (t : Fin cfg0.N) (p k : Fin 1024) (i : Fin 8192) (kk : Fin 4096)
    (hi : i.val = 1024 * (t.val / 16) + p.val) (hk : kk.val = 1024 * (t.val % 4) + k.val) :
    (iblk m c 0 t : Vec F S1024x1024 .f32) (ix2 p k) = V m c main_arg0 (ix2 i kk) := by
  obtain ⟨e0, e1, -⟩ := idx_facts t
  show V m c main_arg0 (((cfg0.win 0).blk t).view.emb (ix2 p k)) = _
  refine congrArg _ (funext fun a => Fin.ext ?_)
  match a with
  | ⟨0, _⟩ => show win0_0.index t (0 : Fin 2) * 1024 + 1 * p.val = i.val; omega
  | ⟨1, _⟩ => show win0_0.index t (1 : Fin 2) * 1024 + 1 * k.val = kk.val; omega

/-- The weight block: rows of output-column tile `t / 4 % 4`, reduction positions of reduction tile `t % 4`. -/
theorem w_apply (c : Dev nD) (t : Fin cfg0.N) (q k : Fin 1024) (j kk : Fin 4096)
    (hj : j.val = 1024 * (t.val / 4 % 4) + q.val) (hk : kk.val = 1024 * (t.val % 4) + k.val) :
    (iblk m c 1 t : Vec F S1024x1024 .f32) (ix2 q k) = V m c main_arg1 (ix2 j kk) := by
  obtain ⟨-, -, e0, e1, -⟩ := idx_facts t
  show V m c main_arg1 (((cfg0.win 1).blk t).view.emb (ix2 q k)) = _
  refine congrArg _ (funext fun a => Fin.ext ?_)
  match a with
  | ⟨0, _⟩ => show win0_1.index t (0 : Fin 2) * 1024 + 1 * q.val = j.val; omega
  | ⟨1, _⟩ => show win0_1.index t (1 : Fin 2) * 1024 + 1 * k.val = kk.val; omega

/-- The activation scale the body extracts from its 1×1 block is the 1×1 array's one element. -/
theorem sx_apply (c : Dev nD) (t : Fin cfg0.N) :
    k0_pay3 (iblk m c 2 t : Vec F S1x1 .f32) = V m c main_v15 (ix2 (0 : Fin 1) (0 : Fin 1)) := by
  obtain ⟨-, -, -, -, e0, e1, -⟩ := idx_facts t
  show V m c main_v15 (((cfg0.win 2).blk t).view.emb (fun a => ⟨![0, 0] a, inpos_S1x1_p0_0 a⟩)) = _
  refine congrArg _ (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- The column of weight scales: rows of output-column tile `t / 4 % 4`. -/
theorem scol_apply (c : Dev nD) (t : Fin cfg0.N) (q : Fin 1024) (j : Fin 4096)
    (hj : j.val = 1024 * (t.val / 4 % 4) + q.val) :
    (iblk m c 3 t : Vec F S1024x1 .f32) (ix2 q (0 : Fin 1)) = V m c main_v9 (ix2 j (0 : Fin 1)) := by
  obtain ⟨-, -, -, -, -, -, e0, e1, -⟩ := idx_facts t
  show V m c main_v9 (((cfg0.win 3).blk t).view.emb (ix2 q (0 : Fin 1))) = _
  refine congrArg _ (funext fun a => Fin.ext ?_)
  match a with
  | ⟨0, _⟩ => show win0_3.index t (0 : Fin 2) * 1024 + 1 * q.val = j.val; omega
  | ⟨1, _⟩ => show win0_3.index t (1 : Fin 2) * 1 + 1 * 0 = 0; omega

/-- The row of weight scales: columns of output-column tile `t / 4 % 4`. -/
theorem srow_apply (c : Dev nD) (t : Fin cfg0.N) (q : Fin 1024) (j : Fin 4096)
    (hj : j.val = 1024 * (t.val / 4 % 4) + q.val) :
    (iblk m c 4 t : Vec F S1x1024 .f32) (ix2 (0 : Fin 1) q) = V m c main_v10 (ix2 (0 : Fin 1) j) := by
  obtain ⟨-, -, -, -, -, -, -, -, e0, e1, -⟩ := idx_facts t
  show V m c main_v10 (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = j.val; omega

end Cert.KernelIdeal.Blocks

end
-- ==== Proof.HostScales.lean ====
/-
  The scales the host computes before the kernel is launched, as functions of the two arguments.

  The activation scale is one number, `max(max|x|, ε) / 127`; the weight scales are one number per output channel,
  `max(max(|min_k w[j,k]|, |max_k w[j,k]|), ε) / 127`. The kernel is handed the first as a 1×1 array and the second twice,
  as a 4096×1 column and as a 1×4096 row; a reshape moves no element, so the 1×1 array holds the number, the column holds
  channel `j`'s scale in row `j`, and the row holds it in column `j`.
-/
import proofs.«111246_j49770081026763_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Scales

open Cert.KernelIdeal Cert.KernelIdeal.Gen

variable {F : FTy → Type} [FloatOps F]

/-- The activation scale: `max(max|x|, ε) / 127`. -/
def xscale (X : (⟨S8192x4096, .f32⟩ : BufTy).Contents (Elt F)) : (⟨S_, .f32⟩ : BufTy).Contents (Elt F) :=
  Host.divf
    (maximumf
      (Host.reduce FloatOps.maximumf (Host.absf X) (constant S_ .f32 0xFF800000#32) reducesTo_S8192x4096_S_d0_1 h_S_)
      (constant S_ .f32 0x322BCC77#32))
    (constant S_ .f32 0x42FE0000#32)

/-- The weight scales, one per output channel: `max(max(|min w|, |max w|), ε) / 127` along each row. -/
def wscale (W : (⟨S4096x4096, .f32⟩ : BufTy).Contents (Elt F)) : (⟨S4096, .f32⟩ : BufTy).Contents (Elt F) :=
  Host.divf
    (maximumf
      (maximumf
        (Host.absf (Host.reduce FloatOps.minimumf W (constant S_ .f32 0x7F800000#32) reducesTo_S4096x4096_S4096_d1 h_S_))
        (Host.absf (Host.reduce FloatOps.maximumf W (constant S_ .f32 0xFF800000#32) reducesTo_S4096x4096_S4096_d1 h_S_)))
      (broadcastInDim S4096 ![] bcast_S_S4096 (constant S_ .f32 0x322BCC77#32)))
    (broadcastInDim S4096 ![] bcast_S_S4096 (constant S_ .f32 0x42FE0000#32))

variable (m : (ℓ : Loc nD τ sig) → Buf (Elt F) ℓ)

/-- The 1×1 array the kernel is handed is the activation scale, reshaped. -/
theorem V_xscale (c : Dev nD) :
    (V m c main_v15 : S1x1.Idx → Elt F .f32) = shapeCast S1x1 (xscale (m ((c : Thread nD τ).loc main_arg0))) shapeCasts_S_S1x1 := by
  dsimp only [Gen.V, Gen.hostOps0]
  after_results
  rfl

/-- The 4096×1 column it is handed is the weight scales, reshaped. -/
theorem V_wscale_col (c : Dev nD) :
    (V m c main_v9 : S4096x1.Idx → Elt F .f32) = shapeCast S4096x1 (wscale (m ((c : Thread nD τ).loc main_arg1))) shapeCasts_S4096_S4096x1 := by
  dsimp only [Gen.V, Gen.hostOps0]
  after_results
  rfl

/-- The 1×4096 row it is handed is the weight scales, reshaped. -/
theorem V_wscale_row (c : Dev nD) :
    (V m c main_v10 : S1x4096.Idx → Elt F .f32) = shapeCast S1x4096 (wscale (m ((c : Thread nD τ).loc main_arg1))) shapeCasts_S4096_S1x4096 := by
  dsimp only [Gen.V, Gen.hostOps0]
  after_results
  rfl

/-- A number laid out as a 1×1 array. -/
theorem oneByOne_apply {α : Type} (x : S_.Idx → α) (h : S_.ShapeCasts S1x1) :
    shapeCast S1x1 x h (ix2 (0 : Fin 1) (0 : Fin 1)) = x ix0 := by
  refine shapeCast_apply x h _ _ ?_
  rw [Shape.rowMajor_val_two]
  have h0 := (S_.rowMajor ix0).isLt
  show (S_.rowMajor ix0).val = (0 : Nat) * 1 + 0
  have : S_.numel = 1 := rfl
  omega

/-- A vector laid out as a single column. -/
theorem colOfVec_apply {α : Type} (x : S4096.Idx → α) (h : S4096.ShapeCasts S4096x1) (j : Fin 4096) :
    shapeCast S4096x1 x h (ix2 j (0 : Fin 1)) = x (ix1 j) := by
  refine shapeCast_apply x h _ _ ?_
  rw [Shape.rowMajor_val_one, Shape.rowMajor_val_two]
  show j.val = j.val * 1 + (0 : Nat)
  omega

/-- A vector laid out as a single row. -/
theorem rowOfVec_apply {α : Type} (x : S4096.Idx → α) (h : S4096.ShapeCasts S1x4096) (j : Fin 4096) :
    shapeCast S1x4096 x h (ix2 (0 : Fin 1) j) = x (ix1 j) := by
  refine shapeCast_apply x h _ _ ?_
  rw [Shape.rowMajor_val_one, Shape.rowMajor_val_two]
  show j.val = (0 : Nat) * 4096 + j.val
  omega

end Cert.KernelIdeal.Scales

end
-- ==== Proof.QuantSpec.lean ====
/-
  The fake-quantized linear layer as one function of its inputs and its scales.

  With an activation scale `sx` and one weight scale `sw j` per output channel, entry `(i, j)` of the result is
  `round(Σₖ q(x[i,k], sx) · q(w[j,k], sw j)) · sx · sw j`, where `q(v, s) = round(clip(v / s))` and the sum runs over all 4096
  reduction positions. Two ways of computing it are shown to give this function: starting an accumulator at zero and adding
  the 4096 products in four consecutive runs of 1024; and writing every rounding in the straight-through form
  `v + (round v - v)`, which is `round v` because every rounded quantity here is a real number.
-/
import proofs.«111246_j49770081026763_1_alg».proof.Proof.QuantAlgebra
import Idealize.ShloMosaic.Lib.ValueIdx

noncomputable section

open scoped BigOperators

namespace QuantSpec

open Idealize.ShloMosaic Idealize.ShloMosaic.ValueIdx QuantAlgebra

/-- The activations' shape, and the result's. -/
abbrev SX : Shape := ⟨2, ![8192, 4096]⟩
/-- The weights' shape. -/
abbrev SW : Shape := ⟨2, ![4096, 4096]⟩

/-- The layer's result, entry by entry. -/
def out (X : SX.Idx → EReal) (W : SW.Idx → EReal) (sx : EReal) (sw : Fin 4096 → EReal) : SX.Idx → EReal := fun idx =>
  rnd (∑ k : Fin 4096, quant (X (ix2 (idx 0) k)) sx * quant (W (ix2 (idx 1) k)) (sw (idx 1))) * sx * sw (idx 1)

/-- The product at reduction position `k` of row `i` and output channel `j`, for every natural `k` (zero past the end). -/
def term (X : SX.Idx → EReal) (W : SW.Idx → EReal) (sx : EReal) (sw : Fin 4096 → EReal) (i : Fin 8192) (j : Fin 4096)
    (k : ℕ) : EReal :=
  if h : k < 4096 then quant (X (ix2 i ⟨k, h⟩)) sx * quant (W (ix2 j ⟨k, h⟩)) (sw j) else 0

/-- Zero plus four runs of 1024 products is the whole contraction. -/
theorem runs_eq (X : SX.Idx → EReal) (W : SW.Idx → EReal) (sx : EReal) (sw : Fin 4096 → EReal) (i : Fin 8192)
    (j : Fin 4096) :
    (0 : EReal) + ∑ s ∈ Finset.range 4, ∑ r : Fin 1024, term X W sx sw i j (1024 * s + r.val)
      = ∑ k : Fin 4096, quant (X (ix2 i k)) sx * quant (W (ix2 j k)) (sw j) := by
  rw [four_runs]
  exact Finset.sum_congr rfl fun k _ => by unfold term; rw [dif_pos k.isLt]

/-- The straight-through spelling, entry `(i, j)`: every `v + (round v - v)` is `round v`. -/
theorem ste_eq (X : SX.Idx → EReal) (W : SW.Idx → EReal) (sx : EReal) (sw : Fin 4096 → EReal) (i : Fin 8192)
    (j : Fin 4096) (D : EReal)
    (hD : D = ∑ k : Fin 4096,
      (clipq (Ideal.div (X (ix2 i k)) sx) + (rnd (clipq (Ideal.div (X (ix2 i k)) sx)) - clipq (Ideal.div (X (ix2 i k)) sx)))
        * (clipq (Ideal.div (W (ix2 j k)) (sw j))
            + (rnd (clipq (Ideal.div (W (ix2 j k)) (sw j))) - clipq (Ideal.div (W (ix2 j k)) (sw j))))) :
    (D + (rnd D - D)) * sx * sw j = out X W sx sw (ix2 i j) := by
  have e : D = ∑ k : Fin 4096, quant (X (ix2 i k)) sx * quant (W (ix2 j k)) (sw j) := by
    rw [hD]
    exact Finset.sum_congr rfl fun k _ => by rw [ste_quant, ste_quant]
  rw [e, ste_of_real (sum_mul_real _ _ _ (fun k => quant_real _ _) (fun k => quant_real _ _))]
  rfl

end QuantSpec

end
-- ==== Proof.KernelResult.lean ====
/-
  What the kernel's result array holds after the run: the layer's function of the two arguments.

  The output block of row tile `a` and output-column tile `b` is written once, at the last of the four grid points
  `16a + 4b + 0 … 3` that share it. Over those four points the scratch accumulator is reset and then takes, at reduction tile
  `s`, the 1024 products of reduction positions `1024 s … 1024 s + 1023`; so at the last point it holds zero plus four
  consecutive runs of the row-by-channel contraction, which is the whole 4096-term contraction. The block written back is
  the rounding of that, times the activation scale, times the output channel's weight scale. The 32 written blocks tile
  the array.
-/
import proofs.«111246_j49770081026763_1_alg».proof.Proof.Gen.KernelIdeal.Value
import proofs.«111246_j49770081026763_1_alg».proof.Proof.BodyPieces
import proofs.«111246_j49770081026763_1_alg».proof.Proof.BodyValue
import proofs.«111246_j49770081026763_1_alg».proof.Proof.BlockReads
import proofs.«111246_j49770081026763_1_alg».proof.Proof.HostScales
import proofs.«111246_j49770081026763_1_alg».proof.Proof.QuantSpec
import Idealize.ShloMosaic.Lib.Pipeline.Value

noncomputable section

open scoped BigOperators
open Idealize.ShloMosaic Idealize.ShloMosaic.TcCoe Idealize.SL.Sem Idealize.ShloMosaic.ValueIdx QuantAlgebra
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The activations and the weights as launched. -/
abbrev X (c : Dev nD) : QuantSpec.SX.Idx → EReal := m ((c : Thread nD τ).loc main_arg0)
abbrev W (c : Dev nD) : QuantSpec.SW.Idx → EReal := m ((c : Thread nD τ).loc main_arg1)
/-- The activation scale and the weight scales the host computes from them. -/
def sx (c : Dev nD) : EReal := Scales.xscale (m ((c : Thread nD τ).loc main_arg0)) ix0
def sw (c : Dev nD) (j : Fin 4096) : EReal := Scales.wscale (m ((c : Thread nD τ).loc main_arg1)) (ix1 j)

/-- The 1×1 array's element is the activation scale; -/
theorem sx_read (c : Dev nD) : (V m c main_v15 (ix2 (0 : Fin 1) (0 : Fin 1)) : EReal) = sx m c :=
  (congrFun (Scales.V_xscale m c) _).trans (Scales.oneByOne_apply _ _)

/-- row `j` of the column is channel `j`'s weight scale; -/
theorem scol_read (c : Dev nD) (j : Fin 4096) : (V m c main_v9 (ix2 j (0 : Fin 1)) : EReal) = sw m c j :=
  (congrFun (Scales.V_wscale_col m c) _).trans (Scales.colOfVec_apply _ _ j)

/-- column `j` of the row is, too. -/
theorem srow_read (c : Dev nD) (j : Fin 4096) : (V m c main_v10 (ix2 (0 : Fin 1) j) : EReal) = sw m c j :=
  (congrFun (Scales.V_wscale_row m c) _).trans (Scales.rowOfVec_apply _ _ j)

/-- What grid point `n` adds to the accumulator at row `p`, column `q` of the block: its 1024 products (zero past the grid). -/
def addend (c : Dev nD) (n : ℕ) (p q : Fin 1024) : EReal :=
  if h : n < cfg0.N then
    ∑ r : Fin 1024,
      quant ((iblk m c 0 ⟨n, h⟩ : Vec Ideal S1024x1024 .f32) (ix2 p r)) (k0_pay3 (iblk m c 2 ⟨n, h⟩ : Vec Ideal S1x1 .f32))
        * quant ((iblk m c 1 ⟨n, h⟩ : Vec Ideal S1024x1024 .f32) (ix2 q r))
            ((iblk m c 3 ⟨n, h⟩ : Vec Ideal S1024x1 .f32) (ix2 q (0 : Fin 1)))
  else 0

/-- At a point whose reduction tile is not the first, the scratch ends at what it held plus the point's addend. -/
theorem step_eq (c : Dev nD) (n : ℕ) (h : n < cfg0.N) (hn : ¬n % 4 = 0) (acc : Vec Ideal S1024x1024 .f32)
    (y : S1024x1024.Idx) :
    (Value.scAt0_0 m c n h acc y : EReal) = (acc y : EReal) + addend m c n (y 0) (y 1) := by
  obtain ⟨p, q, rfl⟩ : ∃ (p q : Fin 1024), y = ix2 p q := ⟨y 0, y 1, eq_ix2 y⟩
  show (Value.scAt0_0 m c n h acc (ix2 p q) : EReal) = (acc (ix2 p q) : EReal) + addend m c n p q
  unfold Value.scAt0_0 addend
  rw [dif_neg hn, dif_pos h]
  by_cases h1 : n % 4 = 3
  · rw [dif_pos h1]
    refine (congrFun (Body.scratch_last (F := Ideal) ..) (ix2 p q)).trans ?_
    exact Body.acc_apply _ _ _ _ _ p q
  · rw [dif_neg h1]
    refine (congrFun (Body.scratch_middle (F := Ideal) ..) (ix2 p q)).trans ?_
    exact Body.acc_apply _ _ _ _ _ p q

/-- At a point whose reduction tile is the first, the scratch ends at zero plus the point's addend. -/
theorem reset_eq (c : Dev nD) (n : ℕ) (h : n < cfg0.N) (hn : n % 4 = 0) (y : S1024x1024.Idx) :
    (Value.scAt0_0 m c n h (VS0_0.read (Elt Ideal) VS0_0.junk) y : EReal) = 0 + addend m c n (y 0) (y 1) := by
  obtain ⟨p, q, rfl⟩ : ∃ (p q : Fin 1024), y = ix2 p q := ⟨y 0, y 1, eq_ix2 y⟩
  show (Value.scAt0_0 m c n h (VS0_0.read (Elt Ideal) VS0_0.junk) (ix2 p q) : EReal) = 0 + addend m c n p q
  unfold Value.scAt0_0 addend
  rw [dif_pos hn, dif_neg (by omega : ¬n % 4 = 3), dif_pos h]
  refine (congrFun (Body.scratch_first (F := Ideal) ..) (ix2 p q)).trans ?_
  refine (Body.acc_apply _ _ _ _ _ p q).trans ?_
  rw [Body.zeros_apply]

/-- After a point whose reduction tile is the last, the scratch holds zero plus the addends of its four points. -/
theorem scratch_at_last (c : Dev nD) (t : Fin cfg0.N) (h3 : t.val % 4 = 3) (y : S1024x1024.Idx) :
    ((outsAt0 m c t.val t.isLt).2 y : EReal)
      = 0 + ∑ s ∈ Finset.range 4, addend m c (4 * (t.val / 4) + s) (y 0) (y 1) := by
  have hN : cfg0.N = 128 := N_0
  have ht := t.isLt
  rw [Value.soutsAt0_0_eq m c t]
  have key := Pipeline.accAt_add_apply (N := cfg0.N) (ι := S1024x1024.Idx) (β := EReal)
    (fun n h => Value.scAt0_0 m c n h (VS0_0.read (Elt Ideal) VS0_0.junk)) (Value.scAt0_0 m c)
    (fun _ => (0 : EReal)) (fun n y => addend m c n (y 0) (y 1)) (4 * (t.val / 4)) 3
    (fun h i => reset_eq m c _ h (by omega) i)
    (fun n h acc i hb he => step_eq m c n h (by omega) acc i)
    (t.val % 4) (by omega) (by omega) y
  rw [key, h3]

/-- The addend of reduction tile `s` of the block's four points is the run `1024 s … 1024 s + 1023` of the contraction of
    the array's row `i` with output channel `j`. -/
theorem addend_eq (c : Dev nD) (t : Fin cfg0.N) (s : ℕ) (hs : s < 4) (p q : Fin 1024) (i : Fin 8192) (j : Fin 4096)
    (hi : i.val = 1024 * (t.val / 16) + p.val) (hj : j.val = 1024 * (t.val / 4 % 4) + q.val) :
    addend m c (4 * (t.val / 4) + s) p q
      = ∑ r : Fin 1024, QuantSpec.term (X m c) (W m c) (sx m c) (sw m c) i j (1024 * s + r.val) := by
  have hN : cfg0.N = 128 := N_0
  have ht := t.isLt
  have hn : 4 * (t.val / 4) + s < cfg0.N := by omega
  unfold addend
  rw [dif_pos hn]
  refine Finset.sum_congr rfl fun r _ => ?_
  have hr := r.isLt
  have hk : 1024 * s + r.val < 4096 := by omega
  unfold QuantSpec.term
  rw [dif_pos hk]
  refine congrArg₂ (· * ·) (congrArg₂ quant ?_ ?_) (congrArg₂ quant ?_ ?_)
  · exact (Blocks.x_apply m c ⟨_, hn⟩ p r i ⟨_, hk⟩
      (by show i.val = 1024 * ((4 * (t.val / 4) + s) / 16) + p.val; omega)
      (by show 1024 * s + r.val = 1024 * ((4 * (t.val / 4) + s) % 4) + r.val; omega)).trans
        (congrFun (V_main_arg0 m c) _)
  · exact (Blocks.sx_apply m c ⟨_, hn⟩).trans (sx_read m c)
  · exact (Blocks.w_apply m c ⟨_, hn⟩ q r j ⟨_, hk⟩
      (by show j.val = 1024 * ((4 * (t.val / 4) + s) / 4 % 4) + q.val; omega)
      (by show 1024 * s + r.val = 1024 * ((4 * (t.val / 4) + s) % 4) + r.val; omega)).trans
        (congrFun (V_main_arg1 m c) _)
  · exact (Blocks.scol_apply m c ⟨_, hn⟩ q j
      (by show j.val = 1024 * ((4 * (t.val / 4) + s) / 4 % 4) + q.val; omega)).trans (scol_read m c j)

/-- At a point whose reduction tile is the last, the scratch the body leaves is the accumulating payload of what the
    point before left. -/
theorem scratch_now (c : Dev nD) (t : Fin cfg0.N) (h0 : ¬t.val % 4 = 0) (h3 : t.val % 4 = 3) :
    k0_pay4 (iblk m c 2 t : Vec Ideal S1x1 .f32) (iblk m c 3 t : Vec Ideal S1024x1 .f32)
        (iblk m c 0 t : Vec Ideal S1024x1024 .f32) (iblk m c 1 t : Vec Ideal S1024x1024 .f32)
        (outsAt0 m c (t.val - 1) (Nat.lt_of_le_of_lt (Nat.sub_le _ _) t.isLt)).2
      = (outsAt0 m c t.val t.isLt).2 := by
  rw [outsAt0_C m c t h0 h3]
  dsimp only
  exact (Body.scratch_last (F := Ideal) ..).symm

/-- The result array's contents: the layer's function of the arguments and the host's scales. -/
abbrev result (c : Dev nD) : Buf (Elt Ideal) ((c : Thread nD τ).loc main_v16) :=
  QuantSpec.out (X m c) (W m c) (sx m c) (sw m c)

/-- What a writing point writes back is its block of that function. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have h0 : ¬t.val % 4 = 0 := by omega
  have hN : cfg0.N = 128 := N_0
  have ht := t.isLt
  obtain ⟨-, -, -, -, -, -, -, -, -, -, e0, e1⟩ := Blocks.idx_facts t
  rw [Value.flushed5_C m c t h0 h3]
  funext y
  obtain ⟨p, q, rfl⟩ : ∃ (p q : Fin 1024), y = ix2 p q := ⟨y 0, y 1, eq_ix2 y⟩
  have hp := p.isLt
  have hq := q.isLt
  have hi : 1024 * (t.val / 16) + p.val < 8192 := by omega
  have hj : 1024 * (t.val / 4 % 4) + q.val < 4096 := by omega
  have hemb : ((cfg0.win 5).blk t).view.emb (ix2 p q) = ix2 (⟨_, hi⟩ : Fin 8192) (⟨_, hj⟩ : Fin 4096) := by
    funext a
    apply Fin.ext
    match a with
    | ⟨0, _⟩ => show win0_5.index t (0 : Fin 2) * 1024 + 1 * p.val = 1024 * (t.val / 16) + p.val; omega
    | ⟨1, _⟩ => show win0_5.index t (1 : Fin 2) * 1024 + 1 * q.val = 1024 * (t.val / 4 % 4) + q.val; omega
  refine (congrFun (Body.out_last (F := Ideal) ..) (ix2 p q)).trans ?_
  refine (Body.epilogue_apply _ _ _ p q).trans ?_
  show _ = result m c (((cfg0.win 5).blk t).view.emb (ix2 p q))
  rw [hemb]
  show _ = rnd (∑ k : Fin 4096, quant (X m c (ix2 (⟨_, hi⟩ : Fin 8192) k)) (sx m c)
      * quant (W m c (ix2 (⟨_, hj⟩ : Fin 4096) k)) (sw m c ⟨_, hj⟩)) * sx m c * sw m c ⟨_, hj⟩
  refine congrArg₂ (· * ·) (congrArg₂ (· * ·) (congrArg rnd ?_) ((Blocks.sx_apply m c t).trans (sx_read m c)))
    ((Blocks.srow_apply m c t q ⟨_, hj⟩ rfl).trans (srow_read m c _))
  refine (congrFun (scratch_now m c t h0 h3) (ix2 p q)).trans ?_
  refine (scratch_at_last m c t h3 (ix2 p q)).trans ?_
  refine Eq.trans ?_ (QuantSpec.runs_eq (X m c) (W m c) (sx m c) (sw m c) ⟨_, hi⟩ ⟨_, hj⟩)
  refine congrArg (fun e : EReal => 0 + e) (Finset.sum_congr rfl fun s hs => ?_)
  exact addend_eq m c t s (Finset.mem_range.mp hs) p q ⟨_, hi⟩ ⟨_, hj⟩ rfl rfl

/-- Every element of the result lies in the block of some writing point. -/
theorem cover (idx : S8192x4096.Idx) :
    ∃ t : Fin cfg0.N, (cfg0.win 5).flush t = true ∧ idx ∈ ((cfg0.win 5).blk t).view.set := by
  have hN : cfg0.N = 128 := N_0
  have h0 : (idx 0).val < 8192 := (idx 0).isLt
  have h1 : (idx 1).val < 4096 := (idx 1).isLt
  have hb : 16 * ((idx 0).val / 1024) + 4 * ((idx 1).val / 1024) + 3 < cfg0.N := by omega
  obtain ⟨-, -, -, -, -, -, -, -, -, -, e0, e1⟩ := Blocks.idx_facts ⟨_, hb⟩
  refine ⟨⟨_, hb⟩, (flush0_5 _).mpr (by show (16 * ((idx 0).val / 1024) + 4 * ((idx 1).val / 1024) + 3) % 4 = 3; omega), ?_⟩
  show idx ∈ ((View.whole main_v16).slice (win0_5.rect ⟨_, hb⟩)).set
  rw [View.set_slice_whole, Rect.mem_set_unit]
  intro a
  match a with
  | ⟨0, _⟩ =>
    show win0_5.index ⟨_, hb⟩ (0 : Fin 2) * 1024 ≤ (idx 0).val ∧ (idx 0).val < win0_5.index ⟨_, hb⟩ (0 : Fin 2) * 1024 + 1024
    rw [e0]
    show (16 * ((idx 0).val / 1024) + 4 * ((idx 1).val / 1024) + 3) / 16 * 1024 ≤ (idx 0).val
      ∧ (idx 0).val < (16 * ((idx 0).val / 1024) + 4 * ((idx 1).val / 1024) + 3) / 16 * 1024 + 1024
    omega
  | ⟨1, _⟩ =>
    show win0_5.index ⟨_, hb⟩ (1 : Fin 2) * 1024 ≤ (idx 1).val ∧ (idx 1).val < win0_5.index ⟨_, hb⟩ (1 : Fin 2) * 1024 + 1024
    rw [e1]
    show (16 * ((idx 0).val / 1024) + 4 * ((idx 1).val / 1024) + 3) / 4 % 4 * 1024 ≤ (idx 1).val
      ∧ (idx 1).val < (16 * ((idx 0).val / 1024) + 4 * ((idx 1).val / 1024) + 3) / 4 % 4 * 1024 + 1024
    omega

/-- The result array after the run. -/
theorem final (c : Dev nD) : (dats m 0 c).arrAt 5 cfg0.N = result m c :=
  (dats m 0 c).arrAt_eq_of_cover 5 (result m c) (flushed_eq m c) cover

/-- The kernel's run: the result array at the layer's function of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefValue.lean ====
/-
  The reference's result, entry by entry, is the layer's function of its inputs and of the scales it computes.

  The reference clips the quotient by the scale between -127 and 127 with the same `min` over `max` the kernel uses,
  writes each rounding in the straight-through form `v + (round v - v)`, transposes the quantized weights and contracts
  over all 4096 positions at once, and multiplies by the activation scale and then by the output channel's weight scale,
  each broadcast over the result.
-/
import proofs.«111246_j49770081026763_1_alg».proof.Proof.Gen.ReferenceIdeal.Read
import proofs.«111246_j49770081026763_1_alg».proof.Proof.QuantSpec

noncomputable section

open scoped BigOperators
open Idealize.ShloMosaic Idealize.ShloMosaic.ValueIdx QuantAlgebra

namespace Cert.ReferenceIdeal.RefValue

open Cert.ReferenceIdeal Cert.ReferenceIdeal.Gen Cert.ReferenceIdeal.Read

/-- The activation scale the reference computes. -/
abbrev sx (X : (⟨S8192x4096, .f32⟩ : BufTy).Contents (Elt Ideal)) : EReal := val_main_v19 (F := Ideal) X ix0
/-- The weight scale it computes for output channel `j`. -/
abbrev sw (W : (⟨S4096x4096, .f32⟩ : BufTy).Contents (Elt Ideal)) (j : Fin 4096) : EReal := val_main_v8 (F := Ideal) W (ix1 j)

/-- The clipped activation quotient at row `i`, position `k`. -/
theorem xclip (X : (⟨S8192x4096, .f32⟩ : BufTy).Contents (Elt Ideal)) (i : Fin 8192) (k : Fin 4096) :
    val_main_v22 (F := Ideal) X (ix2 i k) = clipq (Ideal.div (X (ix2 i k)) (sx X)) := by
  rw [val_main_v22_apply, val_main_call2_v4_apply, val_main_call2_v3_apply, val_main_cst_9_apply,
    val_main_call2_v2_apply, val_main_call2_v1_apply, val_main_call2_v0_apply, val_main_cst_8_apply,
    val_main_v21_apply, val_main_v20_apply]
  rfl

/-- The clipped weight quotient at output channel `j`, position `k`: the scale is channel `j`'s. -/
theorem wclip (W : (⟨S4096x4096, .f32⟩ : BufTy).Contents (Elt Ideal)) (j k : Fin 4096) :
    val_main_v12 (F := Ideal) W (ix2 j k) = clipq (Ideal.div (W (ix2 j k)) (sw W j)) := by
  have e : idx_main_v9 (idx_main_v10 (ix2 j k)) = ix1 j := funext fun a => match a with | ⟨0, _⟩ => rfl
  rw [val_main_v12_apply, val_main_call0_v4_apply, val_main_call0_v3_apply, val_main_cst_4_apply,
    val_main_call0_v2_apply, val_main_call0_v1_apply, val_main_call0_v0_apply, val_main_cst_3_apply,
    val_main_v11_apply, val_main_v10_apply, val_main_v9_apply, e]
  rfl

/-- The reference's result is the layer's function. -/
theorem result_eq (X : (⟨S8192x4096, .f32⟩ : BufTy).Contents (Elt Ideal)) (W : (⟨S4096x4096, .f32⟩ : BufTy).Contents (Elt Ideal)) :
    val_main_v35 (F := Ideal) X W = QuantSpec.out X W (sx X) (sw W) := by
  funext idx
  obtain ⟨i, j, rfl⟩ : ∃ (i : Fin 8192) (j : Fin 4096), idx = ix2 i j := ⟨idx 0, idx 1, eq_ix2 idx⟩
  have el : ∀ k : Fin 4096, lidx_main_v27 (ix2 i j) k = ix2 i k := fun k =>
    funext fun a => match a with | ⟨0, _⟩ => rfl | ⟨1, _⟩ => rfl
  have er : ∀ k : Fin 4096, idx_main_v26 (ridx_main_v27 (ix2 i j) k) = ix2 j k := fun k =>
    funext fun a => match a with | ⟨0, _⟩ => rfl | ⟨1, _⟩ => rfl
  have es : idx_main_v33 (idx_main_v34 (ix2 i j)) = ix1 j := funext fun a => match a with | ⟨0, _⟩ => rfl
  rw [val_main_v35_apply, val_main_v32_apply, val_main_v30_apply, val_main_v29_apply, val_main_v28_apply,
    val_main_v31_apply, val_main_v34_apply, val_main_v33_apply, es]
  refine QuantSpec.ste_eq X W (sx X) (sw W) i j (val_main_v27 (F := Ideal) X W (ix2 i j)) ?_
  rw [val_main_v27_apply]
  refine Finset.sum_congr rfl fun k _ => ?_
  rw [el k, val_main_v26_apply, er k, val_main_v25_apply, val_main_v24_apply, val_main_v23_apply,
    val_main_v15_apply, val_main_v14_apply, val_main_v13_apply, xclip, wclip]
  rfl

end Cert.ReferenceIdeal.RefValue

end
-- ==== Proof.lean ====
/-
  A fake-quantized linear layer, as a Pallas kernel and as its jnp reference, compute the same function on the
  extended reals.

  Both programs first compute, by the same host operations, an activation scale `sx = max(max|x|, ε) / 127` and one
  weight scale per output channel, `sw j = max(max(|min_k w[j,k]|, |max_k w[j,k]|), ε) / 127`. Entry `(i, j)` of the result is

      round( Σₖ round(clip(x[i,k] / sx)) · round(clip(w[j,k] / sw j)) ) · sx · sw j,      clip to [-127, 127],  k < 4096.

  The kernel tiles the result 1024 × 1024 and the contraction in four runs of 1024, adding each run's matrix product to a
  scratch accumulator it zeroes at the first run, and applies the outer rounding and the two scales at the last run; its
  casts of the quantized blocks to a narrower float format are the identity on the extended reals. The reference contracts
  all 4096 positions at once and writes each rounding as `v + (round v - v)`. The two agree because a clipped value is a
  real number whatever was clipped, so every rounded quantity is real and `v + (round v - v) = round v`; and because the
  extended reals' addition is commutative and associative, so zero plus four consecutive runs is the whole sum. Neither
  step uses that the inputs are finite. The idealization rewrote nothing, so the kernel's idealized program is its own
  text read on the extended reals.
-/
import proofs.«111246_j49770081026763_1_alg».proof.Defs
import proofs.«111246_j49770081026763_1_alg».proof.Proof.Gen.Kernel
import proofs.«111246_j49770081026763_1_alg».proof.Proof.Gen.Kernel.Skeleton
import proofs.«111246_j49770081026763_1_alg».proof.Proof.Gen.Kernel.Launch
import proofs.«111246_j49770081026763_1_alg».proof.Proof.Gen.Kernel.Points
import proofs.«111246_j49770081026763_1_alg».proof.Proof.Gen.Kernel.Frame
import proofs.«111246_j49770081026763_1_alg».proof.Proof.Gen.KernelIdeal
import proofs.«111246_j49770081026763_1_alg».proof.Proof.Gen.KernelIdeal.Skeleton
import proofs.«111246_j49770081026763_1_alg».proof.Proof.Gen.KernelIdeal.Launch
import proofs.«111246_j49770081026763_1_alg».proof.Proof.Gen.KernelIdeal.Points
import proofs.«111246_j49770081026763_1_alg».proof.Proof.Gen.KernelIdeal.Frame
import proofs.«111246_j49770081026763_1_alg».proof.Proof.Gen.ReferenceIdeal
import proofs.«111246_j49770081026763_1_alg».proof.Proof.Gen.Pre_finite_inputs
import proofs.«111246_j49770081026763_1_alg».proof.Proof.Gen.KernelIdeal.Value
import proofs.«111246_j49770081026763_1_alg».proof.Proof.Gen.ReferenceIdeal.Run
import proofs.«111246_j49770081026763_1_alg».proof.Proof.Gen.ReferenceIdeal.Read
import proofs.«111246_j49770081026763_1_alg».proof.Proof.KernelResult
import proofs.«111246_j49770081026763_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's host prologue and the reference compute the activation scale by the same operations, -/
theorem xscale_agree (X : (⟨Cert.KernelIdeal.S8192x4096, .f32⟩ : BufTy).Contents (Elt Ideal)) :
    Cert.KernelIdeal.Scales.xscale (F := Ideal) X = Cert.ReferenceIdeal.Read.val_main_v19 (F := Ideal) X := rfl

/-- and the weight scales. -/
theorem wscale_agree (W : (⟨Cert.KernelIdeal.S4096x4096, .f32⟩ : BufTy).Contents (Elt Ideal)) :
    Cert.KernelIdeal.Scales.wscale (F := Ideal) W = Cert.ReferenceIdeal.Read.val_main_v8 (F := Ideal) W := rfl

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer's function of those arguments, with the
    same scales. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq, (hagree c).1, (hagree c).2]
  have e1 : Cert.KernelIdeal.Result.sx m c
      = Cert.ReferenceIdeal.RefValue.sx (m ((c.tc : Thread Cert.KernelIdeal.nD Cert.KernelIdeal.τ).loc Cert.KernelIdeal.main_arg0)) :=
    congrFun (xscale_agree _) _
  have e2 : Cert.KernelIdeal.Result.sw m c
      = Cert.ReferenceIdeal.RefValue.sw (m ((c.tc : Thread Cert.KernelIdeal.nD Cert.KernelIdeal.τ).loc Cert.KernelIdeal.main_arg1)) :=
    funext fun j => congrFun (wscale_agree _) _
  show _ = QuantSpec.out _ _ (Cert.KernelIdeal.Result.sx m c) (Cert.KernelIdeal.Result.sw m c)
  rw [e1, e2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
